-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S16x1024 : S_.BroadcastsInDim S16x1024 (![] : Fin 0 → Fin S16x1024.rank)
  reducesTo_S16x1024_S_d0_1 : S16x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg4 : FVec F S1024x16 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  main_v23

def fn {F : FTy → Type} [FloatOps F] (main_arg0 : FVec F S8x4096x1024 .f32) (main_arg1 : FVec F S1024x1024 .f32) (main_arg2 : FVec F S1024 .f32) (main_arg3 : FVec F S16x1024 .f32) (main_arg4 : FVec F S1024x16 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_v13 main_v16
-- ==== Kernel.lean ====
abbrev S8x4096x1024 : Shape := ⟨3, ![8, 4096, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S32768x1024 : Shape := ⟨2, ![32768, 1024]⟩
abbrev S1x1024 : Shape := ⟨2, ![1, 1024]⟩
abbrev S512x1024 : Shape := ⟨2, ![512, 1024]⟩
abbrev S512x16 : Shape := ⟨2, ![512, 16]⟩

abbrev nBuf : Space → Nat
  | .hbm => 9
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S1024x16, .f32⟩
  | .hbm, ⟨5, _⟩ => ⟨S32768x1024, .f32⟩
  | .hbm, ⟨6, _⟩ => ⟨S1x1024, .f32⟩
  | .hbm, ⟨7, _⟩ => ⟨S32768x1024, .f32⟩
  | .hbm, ⟨8, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S16x1024, .f32⟩
  | .local _ .vmem, ⟨5, _⟩ => ⟨S1024x16, .f32⟩
  | .local _ .vmem, ⟨6, _⟩ => ⟨S512x1024, .f32⟩
  | .local _ .vmem, ⟨7, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x4096x1024_S32768x1024 : S8x4096x1024.ShapeCasts S32768x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S16x1024_S16x1024_0_0 : ∀ a, (![0, 0] : Fin 2 → Nat) a + S16x1024.size a ≤ S16x1024.size a
  h_S16x1024 : 0 < S16x1024.numel
  inb_S1024x16_S1024x16_0_0 : ∀ a, (![0, 0] : Fin 2 → Nat) a + S1024x16.size a ≤ S1024x16.size a
  h_S1024x16 : 0 < S1024x16.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S32768x1024_S8x4096x1024 : S32768x1024.ShapeCasts S8x4096x1024
  dot_S512x1024_S1024x1024_S512x1024_1_1_0_0_n_n_wf : DotDims.WF S512x1024 S1024x1024 S512x1024 [1] [1] [0] [0] [] []
  dot_S512x1024_S16x1024_S512x16_1_1_0_0_n_n_wf : DotDims.WF S512x1024 S16x1024 S512x16 [1] [1] [0] [0] [] []
  dot_S512x16_S1024x16_S512x1024_1_1_0_0_n_n_wf : DotDims.WF S512x16 S1024x16 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x1024.size a
  hwx0_3 : ∀ i : grid0.Coords, EltTy.bits .f32 = 32 ∨ (Rect.block (s := S16x1024) S16x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S1024x16.size a
  hwx0_4 : ∀ i : grid0.Coords, EltTy.bits .f32 = 32 ∨ (Rect.block (s := S1024x16) S1024x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S32768x1024.size a
  hwx0_5 : ∀ i : grid0.Coords, EltTy.bits .f32 = 32 ∨ (Rect.block (s := S32768x1024) S512x1024.size (cc0_transform_5 i) (hinb0_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S16x1024_S512x16_1_1_0_0_n_n : DotDims S512x1024 S16x1024 S512x16 where
  lhsContracting := [1]
  rhsContracting := [1]
  lhsNonContracting := [0]
  rhsNonContracting := [0]
  lhsBatch := []
  rhsBatch := []
  wf := dot_S512x1024_S16x1024_S512x16_1_1_0_0_n_n_wf
def dot_S512x16_S1024x16_S512x1024_1_1_0_0_n_n : DotDims S512x16 S1024x16 S512x1024 where
  lhsContracting := [1]
  rhsContracting := [1]
  lhsNonContracting := [0]
  rhsNonContracting := [0]
  lhsBatch := []
  rhsBatch := []
  wf := dot_S512x16_S1024x16_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S1x1x1024 : Shape := ⟨3, ![1, 1, 1024]⟩
abbrev S8x4096x16 : Shape := ⟨3, ![8, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S1024x16, .f32⟩
  | .hbm, ⟨5, _⟩ => ⟨S8x4096x1024, .f32⟩
  | .hbm, ⟨6, _⟩ => ⟨S1x1x1024, .f32⟩
  | .hbm, ⟨7, _⟩ => ⟨S8x4096x1024, .f32⟩
  | .hbm, ⟨8, _⟩ => ⟨S8x4096x1024, .f32⟩
  | .hbm, ⟨9, _⟩ => ⟨S8x4096x16, .f32⟩
  | .hbm, ⟨10, _⟩ => ⟨S8x4096x1024, .f32⟩
  | .hbm, ⟨11, _⟩ => ⟨S_, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S_S8x4096x1024 : S_.BroadcastsInDim S8x4096x1024 (![] : Fin 0 → Fin S8x4096x1024.rank)
  dot_S8x4096x1024_S1024x1024_S8x4096x1024_2_1_01_0_n_n_wf : DotDims.WF S8x4096x1024 S1024x1024 S8x4096x1024 [2] [1] [0, 1] [0] [] []
  dot_S8x4096x1024_S16x1024_S8x4096x16_2_1_01_0_n_n_wf : DotDims.WF S8x4096x1024 S16x1024 S8x4096x16 [2] [1] [0, 1] [0] [] []
  dot_S8x4096x16_S1024x16_S8x4096x1024_2_1_01_0_n_n_wf : DotDims.WF S8x4096x16 S1024x16 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x4096x1024_S16x1024_S8x4096x16_2_1_01_0_n_n : DotDims S8x4096x1024 S16x1024 S8x4096x16 where
  lhsContracting := [2]
  rhsContracting := [1]
  lhsNonContracting := [0, 1]
  rhsNonContracting := [0]
  lhsBatch := []
  rhsBatch := []
  wf := dot_S8x4096x1024_S16x1024_S8x4096x16_2_1_01_0_n_n_wf
def dot_S8x4096x16_S1024x16_S8x4096x1024_2_1_01_0_n_n : DotDims S8x4096x16 S1024x16 S8x4096x1024 where
  lhsContracting := [2]
  rhsContracting := [1]
  lhsNonContracting := [0, 1]
  rhsNonContracting := [0]
  lhsBatch := []
  rhsBatch := []
  wf := dot_S8x4096x16_S1024x16_S8x4096x1024_2_1_01_0_n_n_wf

class Facts : Prop extends Facts₀ where

variable [Facts]
-- ==== Proof.LibMatmulRows.lean ====
/-
  A matrix product into a zero accumulator whose two operands are both contracted over their SECOND axis, read at one
  entry over the extended reals.

  For dimension numbers that contract axis 1 of the left operand with axis 1 of the right one, with no batch axis — so
  that the left operand is read at (row, k) and the right at (column, k): the product of an [A × K] matrix with the
  transpose of a [B × K] matrix — the entry (p, q) of the result is `∑ₖ l[p, k] · r[q, k]`. The four facts about where
  the dimension numbers read their operands are hypotheses, so that the lemma serves any printed record of this kind.
-/
import Idealize.ShloMosaic.PureOps.Ideal.Laws
import Idealize.ShloMosaic.Lib.ValueIdx

noncomputable section

namespace Idealize.ShloMosaic.MatmulRows

open Idealize.ShloMosaic Idealize.ShloMosaic.ValueIdx

/-- Entry (p, q) of `l · rᵀ` accumulated into zero is the sum over the shared second axis of `l[p, k] · r[q, k]`, for
    dimension numbers `D` whose one contracted axis has extent `K` (`hr`, `hs`) and which read the left operand at
    (row, k) (`hl0`, `hl1`) and the right at (column, k) (`hr0`, `hr1`). -/
theorem matmul_zero_rows {A K B : Nat} {φ₁ φ₂ : FTy}
    (D : DotDims (⟨2, ![A, K]⟩ : Shape) (⟨2, ![B, K]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (i 1).val)
    (hr1 : ∀ (i : (⟨2, ![A, B]⟩ : Shape).Idx) (q : D.contr.Idx), (D.rhsIdx i q 1).val = (q ⟨0, by omega⟩).val)
    (prec : Option ContractPrecision) (l : FVec Ideal (⟨2, ![A, K]⟩ : Shape) φ₁) (r : FVec Ideal (⟨2, ![B, K]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Idealize.ShloMosaic.MatmulRows

end
-- ==== Proof.Payload.lean ====
/-
  What the kernel body stores at one grid point, entry by entry, over the extended reals.

  The body loads a block of 512 flattened input rows `X`, the whole of `W`, `A` and `B`, and the bias as a one-row
  matrix. It forms three matrix products, each contracting the second axis of both operands into a zero accumulator —
  `X·Wᵀ`, `X·Aᵀ` and `(X·Aᵀ)·Bᵀ` —, adds the bias row to every row of the first, multiplies the third by 1.0 and
  adds. The changes of float format on the way are the identity over the extended reals. So the stored entry at row
  `p`, output feature `o` is

      (∑ₖ X[p, k] · W[o, k]  +  bias[0, o])  +  (∑ᵣ (∑ₖ X[p, k] · A[r, k]) · B[o, r]) · 1.
-/
import proofs.«168356_j52012053954937_1_alg».proof.Proof.Gen.KernelIdeal.Skeleton
import proofs.«168356_j52012053954937_1_alg».proof.Proof.LibMatmulRows
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx Idealize.ShloMosaic.MatmulRows

/-! ## Where the three products read their operands -/

theorem xW_l0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem xW_l1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem xW_r0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem xW_r1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

theorem xA_l0 (i : S512x16.Idx) (q : dot_S512x1024_S16x1024_S512x16_1_1_0_0_n_n.contr.Idx) :
    (dot_S512x1024_S16x1024_S512x16_1_1_0_0_n_n.lhsIdx i q 0).val = (i 0).val := by
  unfold DotDims.lhsIdx
  rw [dif_neg (show ¬(0 : Fin S512x1024.rank) ∈ dot_S512x1024_S16x1024_S512x16_1_1_0_0_n_n.lhsBatch by decide), dif_pos (show (0 : Fin S512x1024.rank) ∈ dot_S512x1024_S16x1024_S512x16_1_1_0_0_n_n.lhsNonContracting by decide)]
  rfl
theorem xA_l1 (i : S512x16.Idx) (q : dot_S512x1024_S16x1024_S512x16_1_1_0_0_n_n.contr.Idx) :
    (dot_S512x1024_S16x1024_S512x16_1_1_0_0_n_n.lhsIdx i q 1).val = (q ⟨0, by decide⟩).val :=
  dot_S512x1024_S16x1024_S512x16_1_1_0_0_n_n.lhsIdx_val_of_single rfl i q
theorem xA_r0 (i : S512x16.Idx) (q : dot_S512x1024_S16x1024_S512x16_1_1_0_0_n_n.contr.Idx) :
    (dot_S512x1024_S16x1024_S512x16_1_1_0_0_n_n.rhsIdx i q 0).val = (i 1).val := by
  unfold DotDims.rhsIdx
  rw [dif_neg (show ¬(0 : Fin S16x1024.rank) ∈ dot_S512x1024_S16x1024_S512x16_1_1_0_0_n_n.rhsBatch by decide), dif_pos (show (0 : Fin S16x1024.rank) ∈ dot_S512x1024_S16x1024_S512x16_1_1_0_0_n_n.rhsNonContracting by decide)]
  rfl
theorem xA_r1 (i : S512x16.Idx) (q : dot_S512x1024_S16x1024_S512x16_1_1_0_0_n_n.contr.Idx) :
    (dot_S512x1024_S16x1024_S512x16_1_1_0_0_n_n.rhsIdx i q 1).val = (q ⟨0, by decide⟩).val :=
  dot_S512x1024_S16x1024_S512x16_1_1_0_0_n_n.rhsIdx_val_of_single rfl i q

theorem xaB_l0 (i : S512x1024.Idx) (q : dot_S512x16_S1024x16_S512x1024_1_1_0_0_n_n.contr.Idx) :
    (dot_S512x16_S1024x16_S512x1024_1_1_0_0_n_n.lhsIdx i q 0).val = (i 0).val := by
  unfold DotDims.lhsIdx
  rw [dif_neg (show ¬(0 : Fin S512x16.rank) ∈ dot_S512x16_S1024x16_S512x1024_1_1_0_0_n_n.lhsBatch by decide), dif_pos (show (0 : Fin S512x16.rank) ∈ dot_S512x16_S1024x16_S512x1024_1_1_0_0_n_n.lhsNonContracting by decide)]
  rfl
theorem xaB_l1 (i : S512x1024.Idx) (q : dot_S512x16_S1024x16_S512x1024_1_1_0_0_n_n.contr.Idx) :
    (dot_S512x16_S1024x16_S512x1024_1_1_0_0_n_n.lhsIdx i q 1).val = (q ⟨0, by decide⟩).val :=
  dot_S512x16_S1024x16_S512x1024_1_1_0_0_n_n.lhsIdx_val_of_single rfl i q
theorem xaB_r0 (i : S512x1024.Idx) (q : dot_S512x16_S1024x16_S512x1024_1_1_0_0_n_n.contr.Idx) :
    (dot_S512x16_S1024x16_S512x1024_1_1_0_0_n_n.rhsIdx i q 0).val = (i 1).val := by
  unfold DotDims.rhsIdx
  rw [dif_neg (show ¬(0 : Fin S1024x16.rank) ∈ dot_S512x16_S1024x16_S512x1024_1_1_0_0_n_n.rhsBatch by decide), dif_pos (show (0 : Fin S1024x16.rank) ∈ dot_S512x16_S1024x16_S512x1024_1_1_0_0_n_n.rhsNonContracting by decide)]
  rfl
theorem xaB_r1 (i : S512x1024.Idx) (q : dot_S512x16_S1024x16_S512x1024_1_1_0_0_n_n.contr.Idx) :
    (dot_S512x16_S1024x16_S512x1024_1_1_0_0_n_n.rhsIdx i q 1).val = (q ⟨0, by decide⟩).val :=
  dot_S512x16_S1024x16_S512x1024_1_1_0_0_n_n.rhsIdx_val_of_single rfl i q

/-! ## The three products at an entry -/

/-- `X·Wᵀ` at (p, o): row `p` of the block against row `o` of `W`. -/
theorem xW_at (l : FVec Ideal S512x1024 .bf16) (r : FVec Ideal S1024x1024 .bf16) (p : Fin 512) (o : Fin 1024) :
    matmul dot_S512x1024_S1024x1024_S512x1024_1_1_0_0_n_n none l r (constant (F := Ideal) S512x1024 .f32 0x00000000#32) (ix2 p o)
      = ∑ k : Fin 1024, l (ix2 p k) * r (ix2 o k) :=
  matmul_zero_rows dot_S512x1024_S1024x1024_S512x1024_1_1_0_0_n_n rfl rfl xW_l0 xW_l1 xW_r0 xW_r1 none l r p o

/-- `X·Aᵀ` at (p, r): row `p` of the block against row `r` of `A`. -/
theorem xA_at (l : FVec Ideal S512x1024 .bf16) (r : FVec Ideal S16x1024 .bf16) (p : Fin 512) (j : Fin 16) :
    matmul dot_S512x1024_S16x1024_S512x16_1_1_0_0_n_n none l r (constant (F := Ideal) S512x16 .f32 0x00000000#32) (ix2 p j)
      = ∑ k : Fin 1024, l (ix2 p k) * r (ix2 j k) :=
  matmul_zero_rows dot_S512x1024_S16x1024_S512x16_1_1_0_0_n_n rfl rfl xA_l0 xA_l1 xA_r0 xA_r1 none l r p j

/-- `Y·Bᵀ` at (p, o): row `p` of the low-rank intermediate against row `o` of `B`. -/
theorem xaB_at (l : FVec Ideal S512x16 .bf16) (r : FVec Ideal S1024x16 .bf16) (p : Fin 512) (o : Fin 1024) :
    matmul dot_S512x16_S1024x16_S512x1024_1_1_0_0_n_n none l r (constant (F := Ideal) S512x1024 .f32 0x00000000#32) (ix2 p o)
      = ∑ j : Fin 16, l (ix2 p j) * r (ix2 o j) :=
  matmul_zero_rows dot_S512x16_S1024x16_S512x1024_1_1_0_0_n_n rfl rfl xaB_l0 xaB_l1 xaB_r0 xaB_r1 none l r p o

/-! ## The stored entry -/

/-- The body's stored value at row `p` of the block, output feature `o`. -/
theorem payload_apply (X : Vec Ideal S512x1024 .f32) (W : Vec Ideal S1024x1024 .f32) (A : Vec Ideal S16x1024 .f32)
    (B : Vec Ideal S1024x16 .f32) (brow : Vec Ideal S1x1024 .f32) (p : Fin 512) (o : Fin 1024) :
    k0_pay1 (F := Ideal) X W A B brow (ix2 p o)
      = (∑ k : Fin 1024, X (ix2 p k) * W (ix2 o k) + brow (ix2 (0 : Fin 1) o))
        + (∑ j : Fin 16, (∑ k : Fin 1024, X (ix2 p k) * A (ix2 j k)) * B (ix2 o j)) * Ideal.ofBits .f32 0x3F800000#32 := by
  unfold k0_pay1
  rw [addf_apply, addf_apply, mulf_apply, broadcast_apply, xW_at, xaB_at, broadcastTo_1b_ab_apply]
  simp only [shapeCast_self, truncf_apply, xA_at]
  rfl

end Cert.KernelIdeal.Body

end
-- ==== Proof.Spec.lean ====
/-
  The result of a linear layer with a low-rank correction, as one function of its five argument arrays over the
  extended reals, in the two arrangements the two programs use.

  With `x : [8, 4096, 1024]` (batch, position, input feature), `W : [1024, 1024]` (output feature, input feature),
  `bias : [1024]`, `A : [16, 1024]` (rank, input feature) and `B : [1024, 16]` (output feature, rank), the entry at
  batch `β`, position `s` and output feature `o` is

      (∑ₖ x[β, s, k] · W[o, k]  +  bias[o])  +  (∑ᵣ (∑ₖ x[β, s, k] · A[r, k]) · B[o, r]) · 1,

  the last factor the word of the float 1.0, kept as a word: it is the same word in both programs and is never
  evaluated. `cube` is this function on the [8, 4096, 1024] array. `rows` is the same function on the 32768 rows of
  the flattened input, row `4096·β + s` standing for (β, s), with the bias as a [1, 1024] row. `cube_of_rows` says
  that un-flattening `rows` of the flattened input gives `cube`: a row-major re-indexing, no arithmetic.
-/
import Idealize.ShloMosaic.PureOps.Ideal
import Idealize.ShloMosaic.Lib.ValueIdx
import Idealize.ShloMosaic.Lib.Pipeline.Value

noncomputable section

namespace Cert.LoraSpec

open Idealize.ShloMosaic Idealize.ShloMosaic.ValueIdx

abbrev Sx : Shape := ⟨3, ![8, 4096, 1024]⟩
abbrev Sflat : Shape := ⟨2, ![32768, 1024]⟩
abbrev Sw : Shape := ⟨2, ![1024, 1024]⟩
abbrev Sb : Shape := ⟨1, ![1024]⟩
abbrev Sbrow : Shape := ⟨2, ![1, 1024]⟩
abbrev Sa : Shape := ⟨2, ![16, 1024]⟩
abbrev Sbl : Shape := ⟨2, ![1024, 16]⟩

/-- The word of the float 1.0 read over the extended reals. -/
abbrev one : EReal := Ideal.ofBits .f32 0x3F800000#32

/-- Row `p`, output feature `o` of the layer on flattened rows. -/
def rowsAt (X : FVec Ideal Sflat .f32) (W : FVec Ideal Sw .f32) (brow : FVec Ideal Sbrow .f32) (A : FVec Ideal Sa .f32)
    (B : FVec Ideal Sbl .f32) (p : Fin 32768) (o : Fin 1024) : EReal :=
  (∑ k : Fin 1024, X (ix2 p k) * W (ix2 o k) + brow (ix2 (0 : Fin 1) o))
    + (∑ r : Fin 16, (∑ k : Fin 1024, X (ix2 p k) * A (ix2 r k)) * B (ix2 o r)) * one

/-- The layer on flattened rows, as an array. -/
def rows (X : FVec Ideal Sflat .f32) (W : FVec Ideal Sw .f32) (brow : FVec Ideal Sbrow .f32) (A : FVec Ideal Sa .f32)
    (B : FVec Ideal Sbl .f32) : FVec Ideal Sflat .f32 :=
  fun i => rowsAt X W brow A B (i 0) (i 1)

theorem rows_apply (X : FVec Ideal Sflat .f32) (W : FVec Ideal Sw .f32) (brow : FVec Ideal Sbrow .f32) (A : FVec Ideal Sa .f32)
    (B : FVec Ideal Sbl .f32) (p : Fin 32768) (o : Fin 1024) :
    rows X W brow A B (ix2 p o) = rowsAt X W brow A B p o := rfl

/-- Batch `β`, position `s`, output feature `o` of the layer. -/
def cubeAt (x : FVec Ideal Sx .f32) (W : FVec Ideal Sw .f32) (bias : FVec Ideal Sb .f32) (A : FVec Ideal Sa .f32)
    (B : FVec Ideal Sbl .f32) (β : Fin 8) (s : Fin 4096) (o : Fin 1024) : EReal :=
  (∑ k : Fin 1024, x (ix3 β s k) * W (ix2 o k) + bias (ix1 o))
    + (∑ r : Fin 16, (∑ k : Fin 1024, x (ix3 β s k) * A (ix2 r k)) * B (ix2 o r)) * one

/-- The layer, as an array. -/
def cube (x : FVec Ideal Sx .f32) (W : FVec Ideal Sw .f32) (bias : FVec Ideal Sb .f32) (A : FVec Ideal Sa .f32)
    (B : FVec Ideal Sbl .f32) : FVec Ideal Sx .f32 :=
  fun i => cubeAt x W bias A B (i 0) (i 1) (i 2)

theorem cube_apply (x : FVec Ideal Sx .f32) (W : FVec Ideal Sw .f32) (bias : FVec Ideal Sb .f32) (A : FVec Ideal Sa .f32)
    (B : FVec Ideal Sbl .f32) (β : Fin 8) (s : Fin 4096) (o : Fin 1024) :
    cube x W bias A B (ix3 β s o) = cubeAt x W bias A B β s o := rfl

/-- The flattened input at row `4096·β + s` is the input at (β, s): both sit at the same row-major position. -/
theorem flat_apply (x : FVec Ideal Sx .f32) (h : Sx.ShapeCasts Sflat) (β : Fin 8) (s : Fin 4096) (k : Fin 1024)
    (hp : 4096 * β.val + s.val < 32768) :
    shapeCast Sflat x h (ix2 (⟨4096 * β.val + s.val, hp⟩ : Fin 32768) k) = x (ix3 β s k) :=
  shapeCast_apply x h _ _ (by
    rw [Shape.rowMajor_val_three, Shape.rowMajor_val_two]
    show (β.val * 4096 + s.val) * 1024 + k.val = (4096 * β.val + s.val) * 1024 + k.val
    omega)

/-- The bias as a one-row matrix, at column `o`, is the bias at `o`. -/
theorem brow_apply (bias : FVec Ideal Sb .f32) (h : Sb.ShapeCasts Sbrow) (o : Fin 1024) :
    shapeCast Sbrow bias h (ix2 (0 : Fin 1) o) = bias (ix1 o) :=
  shapeCast_apply bias h _ _ (by
    rw [Shape.rowMajor_val_one, Shape.rowMajor_val_two]
    show o.val = 0 * 1024 + o.val
    omega)

/-- Un-flattening the layer computed on the flattened rows gives the layer: entry (β, s, o) is row `4096·β + s`, column
    `o`, and that row of the flattened input is the input at (β, s). -/
theorem cube_of_rows (x : FVec Ideal Sx .f32) (W : FVec Ideal Sw .f32) (bias : FVec Ideal Sb .f32) (A : FVec Ideal Sa .f32)
    (B : FVec Ideal Sbl .f32) (h0 : Sx.ShapeCasts Sflat) (h1 : Sb.ShapeCasts Sbrow) (h2 : Sflat.ShapeCasts Sx) :
    shapeCast Sx (rows (shapeCast Sflat x h0) W (shapeCast Sbrow bias h1) A B) h2 = cube x W bias A B := by
  funext i
  obtain ⟨β, s, o, rfl⟩ : ∃ (β : Fin 8) (s : Fin 4096) (o : Fin 1024), i = ix3 β s o := ⟨i 0, i 1, i 2, eq_ix3 i⟩
  have hp : 4096 * β.val + s.val < 32768 := by have := β.isLt; have := s.isLt; omega
  rw [shapeCast_apply _ h2 (ix3 β s o) (ix2 (⟨4096 * β.val + s.val, hp⟩ : Fin 32768) o) (by
    rw [Shape.rowMajor_val_three, Shape.rowMajor_val_two]
    show (4096 * β.val + s.val) * 1024 + o.val = (β.val * 4096 + s.val) * 1024 + o.val
    omega)]
  rw [rows_apply, cube_apply]
  unfold rowsAt cubeAt
  simp only [flat_apply x h0 β s _ hp, brow_apply bias h1 o]

end Cert.LoraSpec

end
-- ==== Proof.KernelValue.lean ====
/-
  What the kernel program leaves in its result array, over the extended reals: the layer `cube` of its five arguments.

  The program flattens the input to 32768 rows and the bias to a one-row matrix, runs the body at 64 grid points, point
  `t` on rows `512·t … 512·t + 511` of the flattened input and on the whole of `W`, the bias row, `A` and `B`, and
  un-flattens the 32768 × 1024 output. Point `t` writes back rows `512·t … 512·t + 511` of `rows` of those arrays;
  the 64 blocks tile the output, which therefore ends holding `rows`; and un-flattening `rows` of the flattened input is
  `cube` of the input.
-/
import proofs.«168356_j52012053954937_1_alg».proof.Proof.Gen.KernelIdeal.Frame
import proofs.«168356_j52012053954937_1_alg».proof.Proof.Payload
import proofs.«168356_j52012053954937_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Layer

open Cert.KernelIdeal Cert.KernelIdeal.Gen Cert.KernelIdeal.Body Cert.LoraSpec Idealize.ShloMosaic.ValueIdx

variable (m : (ℓ : Loc nD τ sig) → Buf (Elt Ideal) ℓ) (ρ : Dev nD → PrngReg)

/-! ## The arrays the region finds, by their literal types -/

/-- The flattened input. -/
abbrev xflat (c : Dev nD) : FVec Ideal S32768x1024 .f32 := V m c main_v0
/-- `W`. -/
abbrev warr (c : Dev nD) : FVec Ideal S1024x1024 .f32 := V m c main_arg1
/-- The bias as a one-row matrix. -/
abbrev brow (c : Dev nD) : FVec Ideal S1x1024 .f32 := V m c main_v1
/-- `A`. -/
abbrev aarr (c : Dev nD) : FVec Ideal S16x1024 .f32 := V m c main_arg3
/-- `B`. -/
abbrev barr (c : Dev nD) : FVec Ideal S1024x16 .f32 := V m c main_arg4

theorem hz : (![0, 0] : Fin 2 → Nat) = fun _ => 0 := funext fun a => by fin_cases a <;> rfl

/-- The block indices of the six windows at point `t`: the input and the output move one block of rows per point,
    the other four stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The input window's block at point `t` is rows `512·t …` of the flattened input. -/
theorem xblk_apply (c : Dev nD) (t : Fin cfg0.N) (p : Fin 512) (k : Fin 1024) (hp : 512 * t.val + p.val < 32768) :
    (iblk m c 0 t : Vec Ideal S512x1024 .f32) (ix2 p k) = xflat m c (ix2 (⟨512 * t.val + p.val, hp⟩ : Fin 32768) k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 512 + 1 * p.val = 512 * t.val + p.val; omega
  | ⟨1, _⟩ => show win0_0.index t (1 : Fin 2) * 1024 + 1 * k.val = k.val; omega

/-- The second window's one block is the whole of \`W\`. -/
theorem wblk_apply (c : Dev nD) (t : Fin cfg0.N) (y : S1024x1024.Idx) :
    (iblk m c 1 t : Vec Ideal S1024x1024 .f32) y = warr m c y := by
  obtain ⟨-, -, e0, e1, -⟩ := idx_facts t
  unfold iblk
  rw [View.read_apply]
  show V m c main_arg1 _ = V m c main_arg1 y
  congr 1
  funext a
  apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- The third window's one block is the whole bias row. -/
theorem bblk_apply (c : Dev nD) (t : Fin cfg0.N) (y : S1x1024.Idx) :
    (iblk m c 2 t : Vec Ideal S1x1024 .f32) y = brow m c y := by
  obtain ⟨-, -, -, -, e0, e1, -⟩ := idx_facts t
  unfold iblk
  rw [View.read_apply]
  show V m c main_v1 _ = V m c main_v1 y
  congr 1
  funext a
  apply Fin.ext
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-- The fourth window's one block is the whole of \`A\`. -/
theorem ablk_apply (c : Dev nD) (t : Fin cfg0.N) (y : S16x1024.Idx) :
    (iblk m c 3 t : Vec Ideal S16x1024 .f32) y = aarr m c y := by
  obtain ⟨-, -, -, -, -, -, e0, e1, -⟩ := idx_facts t
  unfold iblk
  rw [View.read_apply]
  show V m c main_arg3 _ = V m c main_arg3 y
  congr 1
  funext a
  apply Fin.ext
  match a with
  | ⟨0, _⟩ => show win0_3.index t (0 : Fin 2) * 16 + 1 * (y 0).val = (y 0).val; omega
  | ⟨1, _⟩ => show win0_3.index t (1 : Fin 2) * 1024 + 1 * (y 1).val = (y 1).val; omega

/-- The fifth window's one block is the whole of \`B\`. -/
theorem blblk_apply (c : Dev nD) (t : Fin cfg0.N) (y : S1024x16.Idx) :
    (iblk m c 4 t : Vec Ideal S1024x16 .f32) y = barr m c y := by
  obtain ⟨-, -, -, -, -, -, -, -, e0, e1, -⟩ := idx_facts t
  unfold iblk
  rw [View.read_apply]
  show V m c main_arg4 _ = V m c main_arg4 y
  congr 1
  funext a
  apply Fin.ext
  match a with
  | ⟨0, _⟩ => show win0_4.index t (0 : Fin 2) * 1024 + 1 * (y 0).val = (y 0).val; omega
  | ⟨1, _⟩ => show win0_4.index t (1 : Fin 2) * 16 + 1 * (y 1).val = (y 1).val; omega

/-- Entry (p, o) of the output's block at point `t` sits at row `512·t + p`, column `o` of the output array. -/
theorem oblk_emb (t : Fin cfg0.N) (p : Fin 512) (o : Fin 1024) (hp : 512 * t.val + p.val < 32768) :
    ((cfg0.win 5).blk t).view.emb (ix2 p o) = ix2 (⟨512 * t.val + p.val, hp⟩ : Fin 32768) o := by
  obtain ⟨-, -, -, -, -, -, -, -, -, -, e0, e1⟩ := idx_facts t
  funext a
  apply Fin.ext
  match a with
  | ⟨0, _⟩ => show win0_5.index t (0 : Fin 2) * 512 + 1 * p.val = 512 * t.val + p.val; omega
  | ⟨1, _⟩ => show win0_5.index t (1 : Fin 2) * 1024 + 1 * o.val = o.val; omega

/-! ## What a point writes back -/

/-- The body's stored value on a block of 512 rows that are rows `512·t …` of `X` is rows `512·t …` of `rows`. -/
theorem stored_eq_rows (X : FVec Ideal S32768x1024 .f32) (W : FVec Ideal S1024x1024 .f32) (b1 : FVec Ideal S1x1024 .f32)
    (A : FVec Ideal S16x1024 .f32) (B : FVec Ideal S1024x16 .f32) (xb : Vec Ideal S512x1024 .f32) (t : Nat)
    (p : Fin 512) (o : Fin 1024) (hp : 512 * t + p.val < 32768)
    (hx : ∀ k : Fin 1024, xb (ix2 p k) = X (ix2 (⟨512 * t + p.val, hp⟩ : Fin 32768) k)) :
    k0_pay1 (F := Ideal) xb W A B b1 (ix2 p o) = rows X W b1 A B (ix2 (⟨512 * t + p.val, hp⟩ : Fin 32768) o) := by
  rw [payload_apply, rows_apply]
  unfold rowsAt
  simp only [hx]

/-- WHAT POINT `t` WRITES BACK is block `t` of `rows` of the arrays the region finds. -/
theorem flushed_eq (c : Dev nD) (t : Fin cfg0.N) :
    (dats m 0 c).flushed 5 t
      = ((cfg0.win 5).blk t).view.read (Elt Ideal) (rows (xflat m c) (warr m c) (brow m c) (aarr m c) (barr m c)) := by
  show (cfg0.win 5).cut (grid0.coords t) ((dats m 0 c).after 5 t) = _
  rw [after0_5]
  unfold out0_5
  rw [View.canon_unit_zero hz]
  simp only [View.ld_unit_zero (S := S512x1024) hz, View.ld_unit_zero (S := S1024x1024) hz, View.ld_unit_zero (S := S16x1024) hz,
    View.ld_unit_zero (S := S1024x16) hz, View.ld_unit_zero (S := S1x1024) hz]
  funext j
  obtain ⟨p, o, rfl⟩ : ∃ (p : Fin 512) (o : Fin 1024), j = ix2 p o := ⟨j 0, j 1, eq_ix2 j⟩
  have hN : cfg0.N = 64 := N_0
  have hp : 512 * t.val + p.val < 32768 := by have := t.isLt; have := p.isLt; omega
  show k0_pay1 (F := Ideal) (iblk m c 0 t) (iblk m c 1 t) (iblk m c 3 t) (iblk m c 4 t) (iblk m c 2 t) (ix2 p o)
    = rows (xflat m c) (warr m c) (brow m c) (aarr m c) (barr m c) (((cfg0.win 5).blk t).view.emb (ix2 p o))
  have eW : (iblk m c 1 t : Vec Ideal S1024x1024 .f32) = warr m c := funext (wblk_apply m c t)
  have eb : (iblk m c 2 t : Vec Ideal S1x1024 .f32) = brow m c := funext (bblk_apply m c t)
  have eA : (iblk m c 3 t : Vec Ideal S16x1024 .f32) = aarr m c := funext (ablk_apply m c t)
  have eB : (iblk m c 4 t : Vec Ideal S1024x16 .f32) = barr m c := funext (blblk_apply m c t)
  rw [oblk_emb t p o hp, eW, eb, eA, eB]
  exact stored_eq_rows (xflat m c) (warr m c) (brow m c) (aarr m c) (barr m c) (iblk m c 0 t) t.val p o hp
    (fun k => xblk_apply m c t p k hp)

/-! ## The output array after the run -/

/-- The 64 blocks of 512 rows tile the 32768 rows, so the output array ends holding `rows`: row `i` is in the block
    of point `i / 512`. -/
theorem final_rows (c : Dev nD) :
    (dats m 0 c).arrAt 5 cfg0.N = rows (xflat m c) (warr m c) (brow m c) (aarr m c) (barr m c) :=
  (dats m 0 c).arrAt_eq_of_cover 5 (rows (xflat m c) (warr m c) (brow m c) (aarr m c) (barr m c))
    (fun t _ => flushed_eq m c t) fun i => by
      have hN : cfg0.N = 64 := N_0
      have hi0 : (i 0).val < 32768 := (i 0).isLt
      have hi1 : (i 1).val < 1024 := (i 1).isLt
      obtain ⟨tt, htt⟩ : ∃ tt : Fin cfg0.N, tt.val = (i 0).val / 512 := ⟨⟨(i 0).val / 512, by rw [hN]; omega⟩, rfl⟩
      obtain ⟨-, -, -, -, -, -, -, -, -, -, e0, e1⟩ := idx_facts tt
      refine ⟨tt, flush0_5 tt, ?_⟩
      show i ∈ ((View.whole main_v2).slice (win0_5.rect tt)).set
      rw [View.set_slice_whole, Rect.mem_set_unit]
      intro a
      match a with
      | ⟨0, _⟩ =>
        show win0_5.index tt (0 : Fin 2) * 512 ≤ (i 0).val ∧ (i 0).val < win0_5.index tt (0 : Fin 2) * 512 + 512
        omega
      | ⟨1, _⟩ =>
        show win0_5.index tt (1 : Fin 2) * 1024 ≤ (i 1).val ∧ (i 1).val < win0_5.index tt (1 : Fin 2) * 1024 + 1024
        omega

/-! ## The host lines before and after the region -/

/-- The region finds the input flattened: the first host line is a reshape of the first argument. -/
theorem xflat_eq (c : Dev nD) (h : S8x4096x1024.ShapeCasts S32768x1024) :
    xflat m c = shapeCast S32768x1024 (m ((c : Thread nD τ).loc main_arg0)) h := by
  show StableHlo.after hostOps0 (fun b => m (c, b)) (Proc.devRef .tc main_v0) = _
  after_results
  rfl

/-- The region finds the bias as a one-row matrix: the second host line is a reshape of the third argument. -/
theorem brow_eq (c : Dev nD) (h : S1024.ShapeCasts S1x1024) :
    brow m c = shapeCast S1x1024 (m ((c : Thread nD τ).loc main_arg2)) h := by
  show StableHlo.after hostOps0 (fun b => m (c, b)) (Proc.devRef .tc main_v1) = _
  after_results
  rfl

/-- The result is the output array un-flattened: the one host line after the region is a reshape of it. -/
theorem tail_eq (c : Dev nD) (h : S32768x1024.ShapeCasts S8x4096x1024) :
    Pipeline.afterTail₀ cfgs (dats m) 0 (V0 m) [hostOps1] c main_v3
      = shapeCast S8x4096x1024 ((dats m 0 c).arrAt 5 cfg0.N) h := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = (dats m 0 c).arrAt 5 cfg0.N :=
    Pipeline.withArrays_arr spec0 launch0.win.arr_inj c (V0 m c) (fun w => (dats m 0 c).arrAt w cfg0.N) 5
  rw [e]
  rfl

/-- THE RESULT: the layer of the five arguments. The output array holds `rows` of the flattened input, `W`, the bias
    row, `A` and `B`; un-flattened, that is `cube` of the arguments. -/
theorem result_eq (c : Dev nD) :
    Pipeline.afterTail₀ cfgs (dats m) 0 (V0 m) [hostOps1] c main_v3
      = cube (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_eq m c Facts₀.shapeCasts_S32768x1024_S8x4096x1024, final_rows m c,
    xflat_eq m c Facts₀.shapeCasts_S8x4096x1024_S32768x1024, brow_eq m c Facts₀.shapeCasts_S1024_S1x1024,
    show warr m c = (m ((c : Thread nD τ).loc main_arg1)) from V_main_arg1 m c,
    show aarr m c = (m ((c : Thread nD τ).loc main_arg3)) from V_main_arg3 m c,
    show barr m c = (m ((c : Thread nD τ).loc main_arg4)) from V_main_arg4 m c]
  exact cube_of_rows _ _ _ _ _ _ _ _

/-! ## The run, read -/

/-- Every weakly fair execution of the program terminates with the result array at the layer of the arguments and the
    arguments unchanged: the frame run, its post read at the result (the host tail of the output array) and at each
    argument (an array of the pipeline, or a buffer no line after the region writes). -/
theorem run : θ_run defs (onTc (τ := τ) (main (F := Ideal))) ⟨m, fun _ => 0, ρ⟩ fun r => ∀ c : Dev nD,
      r.2.mem ((c.tc : Thread nD τ).loc main_v3)
        = cube (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Layer

end
-- ==== Proof.RefValue.lean ====
/-
  The reference's result, read entry by entry, is the layer `cube` of its five arguments.

  The reference contracts the input's feature axis with `W`'s, adds the bias broadcast over batch and position, contracts
  the input's feature axis with `A`'s and the rank axis of that with `B`'s, multiplies by 1.0 and adds. At batch `β`,
  position `s` and output feature `o` each contraction reads its left operand at (β, s, ·) and its right operand's row
  named by the result's last coordinate, so the entry is `cubeAt … β s o` term for term.
-/
import proofs.«168356_j52012053954937_1_alg».proof.Proof.Gen.ReferenceIdeal.Read
import proofs.«168356_j52012053954937_1_alg».proof.Proof.Spec

noncomputable section

namespace Cert.ReferenceIdeal.RefValue

open Cert.ReferenceIdeal Cert.ReferenceIdeal.Read Idealize.ShloMosaic Idealize.ShloMosaic.ValueIdx Cert.LoraSpec

/-! ## Where each operation reads its operands, in coordinates -/

theorem xW_left (β : Fin 8) (s : Fin 4096) (o k : Fin 1024) : lidx_main_v0 (ix3 β s o) k = ix3 β s k :=
  funext fun a => Fin.ext (by match a with | ⟨0, _⟩ => rfl | ⟨1, _⟩ => rfl | ⟨2, _⟩ => rfl)
theorem xW_right (β : Fin 8) (s : Fin 4096) (o k : Fin 1024) : ridx_main_v0 (ix3 β s o) k = ix2 o k :=
  funext fun a => Fin.ext (by match a with | ⟨0, _⟩ => rfl | ⟨1, _⟩ => rfl)
theorem bias_at (β : Fin 8) (s : Fin 4096) (o : Fin 1024) : idx_main_v1 (idx_main_v2 (ix3 β s o)) = ix1 o :=
  funext fun a => Fin.ext (by match a with | ⟨0, _⟩ => rfl)
theorem xaB_left (β : Fin 8) (s : Fin 4096) (o : Fin 1024) (r : Fin 16) : lidx_main_v5 (ix3 β s o) r = ix3 β s r :=
  funext fun a => Fin.ext (by match a with | ⟨0, _⟩ => rfl | ⟨1, _⟩ => rfl | ⟨2, _⟩ => rfl)
theorem xaB_right (β : Fin 8) (s : Fin 4096) (o : Fin 1024) (r : Fin 16) : ridx_main_v5 (ix3 β s o) r = ix2 o r :=
  funext fun a => Fin.ext (by match a with | ⟨0, _⟩ => rfl | ⟨1, _⟩ => rfl)
theorem xA_left (β : Fin 8) (s : Fin 4096) (r : Fin 16) (k : Fin 1024) : lidx_main_v4 (ix3 β s r) k = ix3 β s k :=
  funext fun a => Fin.ext (by match a with | ⟨0, _⟩ => rfl | ⟨1, _⟩ => rfl | ⟨2, _⟩ => rfl)
theorem xA_right (β : Fin 8) (s : Fin 4096) (r : Fin 16) (k : Fin 1024) : ridx_main_v4 (ix3 β s r) k = ix2 r k :=
  funext fun a => Fin.ext (by match a with | ⟨0, _⟩ => rfl | ⟨1, _⟩ => rfl)

/-! ## The reference's last stage is the layer -/

/-- The low-rank intermediate at (β, s, r): the input's row (β, s) against row `r` of `A`. -/
theorem xA_apply (x : FVec Ideal S8x4096x1024 .f32) (A : FVec Ideal S16x1024 .f32) (β : Fin 8) (s : Fin 4096) (r : Fin 16) :
    val_main_v4 (F := Ideal) x A (ix3 β s r) = ∑ k : Fin 1024, x (ix3 β s k) * A (ix2 r k) := by
  rw [val_main_v4_apply]
  exact Finset.sum_congr rfl fun k _ => by rw [xA_left, xA_right]

theorem stage_eq_cube (x : FVec Ideal S8x4096x1024 .f32) (W : FVec Ideal S1024x1024 .f32) (bias : FVec Ideal S1024 .f32)
    (A : FVec Ideal S16x1024 .f32) (B : FVec Ideal S1024x16 .f32) :
    val_main_v8 (F := Ideal) x W bias A B = cube x W bias A B := by
  funext i
  obtain ⟨β, s, o, rfl⟩ : ∃ (β : Fin 8) (s : Fin 4096) (o : Fin 1024), i = ix3 β s o := ⟨i 0, i 1, i 2, eq_ix3 i⟩
  rw [cube_apply, val_main_v8_apply, val_main_v3_apply, val_main_v7_apply, val_main_v0_apply, val_main_v2_apply,
    val_main_v1_apply, val_main_v5_apply, val_main_v6_apply, val_main_cst_apply, bias_at]
  unfold cubeAt
  have eW : ∑ k : Fin 1024, x (lidx_main_v0 (ix3 β s o) k) * W (ridx_main_v0 (ix3 β s o) k)
      = ∑ k : Fin 1024, x (ix3 β s k) * W (ix2 o k) :=
    Finset.sum_congr rfl fun k _ => by rw [xW_left, xW_right]
  have eB : ∑ r : Fin 16, val_main_v4 (F := Ideal) x A (lidx_main_v5 (ix3 β s o) r) * B (ridx_main_v5 (ix3 β s o) r)
      = ∑ r : Fin 16, (∑ k : Fin 1024, x (ix3 β s k) * A (ix2 r k)) * B (ix2 o r) :=
    Finset.sum_congr rfl fun r _ => by rw [xaB_left, xaB_right, xA_apply]
  rw [eW, eB]
  rfl

end Cert.ReferenceIdeal.RefValue

end
-- ==== Proof.lean ====
/-
  A linear layer with a low-rank correction, `y = x·Wᵀ + bias + ((x·Aᵀ)·Bᵀ)·1`, computed by a tiled kernel and by a
  plain reference: the two agree over the extended reals.

  The kernel flattens `x : [8, 4096, 1024]` to 32768 rows and works on 64 blocks of 512 rows; on each block it forms
  the three matrix products (each contracting the second axis of both operands), adds the bias row, multiplies the
  low-rank term by 1.0 and adds, and the result is un-flattened. The reference does the same contractions on the
  un-flattened array. Entry (β, s, o) of both is

      (∑ₖ x[β, s, k] · W[o, k]  +  bias[o])  +  (∑ᵣ (∑ₖ x[β, s, k] · A[r, k]) · B[o, r]) · 1

  with the same grouping of the additions and the same word for 1.0, so no law of arithmetic is needed and the
  precondition (finite inputs) is never opened: the only differences are the row flattening (β, s) ↦ 4096·β + s and the
  tiling into blocks, which are re-indexings. Proof/Spec.lean states this function in both arrangements and relates
  them; Proof/Payload.lean reads the kernel body's stored value at an entry; Proof/KernelValue.lean assembles the
  blocks into the output array and reads the host reshapes around the region; Proof/RefValue.lean reads the reference.
  The three frames are the generated ones (the reference's is its run with the result dropped); the kernel is its own
  idealization (no rewrite was applied), so that conjunct is trivial.
-/
import proofs.«168356_j52012053954937_1_alg».proof.Defs
import proofs.«168356_j52012053954937_1_alg».proof.Proof.Gen.Kernel
import proofs.«168356_j52012053954937_1_alg».proof.Proof.Gen.Kernel.Skeleton
import proofs.«168356_j52012053954937_1_alg».proof.Proof.Gen.Kernel.Launch
import proofs.«168356_j52012053954937_1_alg».proof.Proof.Gen.Kernel.Points
import proofs.«168356_j52012053954937_1_alg».proof.Proof.Gen.Kernel.Frame
import proofs.«168356_j52012053954937_1_alg».proof.Proof.Gen.KernelIdeal
import proofs.«168356_j52012053954937_1_alg».proof.Proof.Gen.KernelIdeal.Skeleton
import proofs.«168356_j52012053954937_1_alg».proof.Proof.Gen.KernelIdeal.Launch
import proofs.«168356_j52012053954937_1_alg».proof.Proof.Gen.KernelIdeal.Points
import proofs.«168356_j52012053954937_1_alg».proof.Proof.Gen.KernelIdeal.Frame
import proofs.«168356_j52012053954937_1_alg».proof.Proof.Gen.ReferenceIdeal
import proofs.«168356_j52012053954937_1_alg».proof.Proof.Gen.Pre_finite_inputs
import proofs.«168356_j52012053954937_1_alg».proof.Proof.Gen.ReferenceIdeal.Run
import proofs.«168356_j52012053954937_1_alg».proof.Proof.Gen.ReferenceIdeal.Read
import proofs.«168356_j52012053954937_1_alg».proof.Proof.KernelValue
import proofs.«168356_j52012053954937_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer `cube` of their arguments in the result array; the arguments agree. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v8_eq, Cert.ReferenceIdeal.RefValue.stage_eq_cube, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
